-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16384x64 .f32) (main_arg1 : FVec F S16384x16384 .f32) (main_arg2 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16384x64 : Shape := ⟨2, ![16384, 64]⟩
abbrev S16384x16384 : Shape := ⟨2, ![16384, 16384]⟩
abbrev S64x64 : Shape := ⟨2, ![64, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 4
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S64x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩

abbrev nBuf : Space → Nat
  | .hbm => 5
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S16384x64, .f32⟩
  | .hbm, ⟨4, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.ConvSpec.lean ====
/-
  The graph convolution (A · X) · W over the extended reals, as one function of the three arrays, index by index:
  entry (r, j) of the result is the sum over c of (A · X)(r, c) times W(c, j), and (A · X)(r, c) is the sum over k of
  A(r, k) times X(k, c). Beside it the inner sum cut at a column K of A (its first K terms, K a natural number): the
  full sum is the cut at 16384, a cut at a + b is the cut at a plus the next b terms, and the cut at 0 is zero. Addition
  of extended reals is commutative and associative, so no finiteness enters.
-/
import Idealize.ShloMosaic.PureOps.Ideal
import Idealize.ShloMosaic.Lib.ValueIdx
import Mathlib.Algebra.BigOperators.Fin
import Mathlib.Algebra.BigOperators.Group.Finset.Basic

noncomputable section

namespace Cert.GraphConv

open Idealize.ShloMosaic Idealize.ShloMosaic.ValueIdx

/-- Node features X: 16384 nodes, 64 channels. -/
abbrev SX : Shape := ⟨2, ![16384, 64]⟩
/-- The dense adjacency A. -/
abbrev SA : Shape := ⟨2, ![16384, 16384]⟩
/-- The projection W. -/
abbrev SW : Shape := ⟨2, ![64, 64]⟩

variable (x : SX.Idx → EReal) (adj : SA.Idx → EReal) (w : SW.Idx → EReal)

/-- Entry (r, c) of A · X: node r's aggregated channel c. -/
def agg (r : Fin 16384) (c : Fin 64) : EReal := ∑ k : Fin 16384, adj (ix2 r k) * x (ix2 k c)

/-- The result (A · X) · W at an index. -/
def conv : SX.Idx → EReal := fun i => ∑ c : Fin 64, agg x adj (i 0) c * w (ix2 c (i 1))

/-- The n-th term of the inner sum, for any natural n (zero past A's last column). -/
def term (r : Fin 16384) (c : Fin 64) (n : ℕ) : EReal :=
  if h : n < 16384 then adj (ix2 r ⟨n, h⟩) * x (ix2 ⟨n, h⟩ c) else 0

/-- The inner sum's first K terms. -/
def aggUpTo (r : Fin 16384) (c : Fin 64) (K : ℕ) : EReal := ∑ n ∈ Finset.range K, term x adj r c n

theorem aggUpTo_zero (r : Fin 16384) (c : Fin 64) : aggUpTo x adj r c 0 = 0 := Finset.sum_range_zero _

/-- The first a + b terms are the first a and then the next b. -/
theorem aggUpTo_add (r : Fin 16384) (c : Fin 64) (a b : ℕ) :
    aggUpTo x adj r c (a + b) = aggUpTo x adj r c a + ∑ j : Fin b, term x adj r c (a + j.val) := by
  unfold aggUpTo
  rw [Finset.sum_range_add]
  exact congrArg (_ + ·) (Finset.sum_range fun n => term x adj r c (a + n))

/-- All 16384 terms: the entry of A · X. -/
theorem aggUpTo_full (r : Fin 16384) (c : Fin 64) : aggUpTo x adj r c 16384 = agg x adj r c := by
  unfold aggUpTo agg
  rw [Finset.sum_range]
  exact Finset.sum_congr rfl fun k _ => by unfold term; rw [dif_pos k.isLt]

/-- A term inside A's columns. -/
theorem term_of_lt (r : Fin 16384) (c : Fin 64) (n : ℕ) (h : n < 16384) :
    term x adj r c n = adj (ix2 r ⟨n, h⟩) * x (ix2 ⟨n, h⟩ c) := by
  unfold term; rw [dif_pos h]

end Cert.GraphConv

end
-- ==== Proof.PayloadAt.lean ====
/-
  The kernel body's three stored values at the exact instance, read at an index (p, q) of the 1024 × 64 block: the
  reset stores zero; the update stores acc + (A-block · X-block), the product a sum over the block's 2048 columns of A
  (the casts to bf16 are the identity on extended reals, the product's own accumulator is zero); the last step stores
  acc · W, a sum over the 64 channels.
-/
import proofs.«114459_j30081950941518_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.GraphConv.Body

open Cert.KernelIdeal Cert.KernelIdeal.Gen Idealize.ShloMosaic Idealize.ShloMosaic.ValueIdx

/-! ## The two products' operand indices, axis by axis -/

theorem lhs_blockdot_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_blockdot_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_blockdot_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_blockdot_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

theorem lhs_projdot_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_projdot_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_projdot_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_projdot_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-! ## The products at an index -/

/-- The matrix product into a zero accumulator, at (p, q): the sum over the contracted axis. -/
theorem blockdot_apply (a : FVec Ideal S1024x2048 .bf16) (b : FVec Ideal S2048x64 .bf16) (p : Fin 1024) (q : Fin 64) :
    matmul dot_S1024x2048_S2048x64_S1024x64_1_0_0_1_n_n none a b (constant S1024x64 .f32 0x00000000#32) (ix2 p q) = ∑ k : Fin 2048, a (ix2 p k) * b (ix2 k q) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q) ((ValueIdx.contrEquiv1 dot_S1024x2048_S2048x64_S1024x64_1_0_0_1_n_n 2048 rfl rfl).symm k) = ix2 p k := funext fun a => Fin.ext (by
    match a with
    | ⟨0, _⟩ => exact lhs_blockdot_0 _ _
    | ⟨1, _⟩ => exact (lhs_blockdot_1 _ _).trans hk)
  have er : dot_S1024x2048_S2048x64_S1024x64_1_0_0_1_n_n.rhsIdx (ix2 p q) ((ValueIdx.contrEquiv1 dot_S1024x2048_S2048x64_S1024x64_1_0_0_1_n_n 2048 rfl rfl).symm k) = ix2 k q := funext fun a => Fin.ext (by
    match a with
    | ⟨0, _⟩ => exact (rhs_blockdot_0 _ _).trans hk
    | ⟨1, _⟩ => exact rhs_blockdot_1 _ _)
  rw [el, er]

/-- The matrix product into a zero accumulator, at (p, q): the sum over the contracted axis. -/
theorem projdot_apply (a : FVec Ideal S1024x64 .bf16) (b : FVec Ideal S64x64 .bf16) (p : Fin 1024) (q : Fin 64) :
    matmul dot_S1024x64_S64x64_S1024x64_1_0_0_1_n_n none a b (constant S1024x64 .f32 0x00000000#32) (ix2 p q) = ∑ k : Fin 64, a (ix2 p k) * b (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact lhs_projdot_0 _ _
    | ⟨1, _⟩ => exact (lhs_projdot_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (rhs_projdot_0 _ _).trans hk
    | ⟨1, _⟩ => exact rhs_projdot_1 _ _)
  rw [el, er]

/-! ## The stored values at an index -/

/-- The reset's value: zero everywhere. -/
theorem reset_apply (j : S1024x64.Idx) : k0_pay1 (F := Ideal) j = 0 := by
  unfold k0_pay1
  rw [shapeCast_self]
  show Ideal.ofBits .f32 0x00000000#32 = 0
  exact Ideal.ofBits_zero_f32

/-- The update's value at (p, q): what the accumulator held plus the block's partial products. -/
theorem accumulate_apply (a : Vec Ideal S1024x2048 .f32) (b : Vec Ideal S2048x64 .f32) (acc : Vec Ideal S1024x64 .f32)
    (p : Fin 1024) (q : Fin 64) :
    k0_pay2 (F := Ideal) a b acc (ix2 p q) = acc (ix2 p q) + ∑ k : Fin 2048, a (ix2 p k) * b (ix2 k q) := by
  unfold k0_pay2
  rw [shapeCast_self]
  refine (addf_apply _ _ _).trans ?_
  exact congrArg (acc (ix2 p q) + ·) (blockdot_apply _ _ p q)

/-- The last step's value at (p, q): the finished aggregate times W. -/
theorem project_apply (acc : Vec Ideal S1024x64 .f32) (wt : Vec Ideal S64x64 .f32) (p : Fin 1024) (q : Fin 64) :
    k0_pay3 (F := Ideal) acc wt (ix2 p q) = ∑ k : Fin 64, acc (ix2 p k) * wt (ix2 k q) := by
  unfold k0_pay3
  exact projdot_apply _ _ p q

end Cert.GraphConv.Body

end
-- ==== Proof.CaseValues.lean ====
/-
  What one run of the kernel body leaves behind, case by case, as the body's stored values of the blocks it loaded.
  At the first step of a row tile (k = 0) the accumulator is first set to zero and then updated, so it ends at the
  update of zero; at every later step it ends at the update of what the step before left; at the last step (k = 7) the
  output block is in addition the product of the finished accumulator with W. Each is read off the pieces the run of
  the body stored: every store covers its whole buffer, and every load reads a whole buffer (a load of the accumulator
  after a store in the same run reads that store's value).
-/
import proofs.«114459_j30081950941518_1_alg».proof.Proof.Gen.KernelIdeal.Frame
import Idealize.ShloMosaic.Lib.Pipeline.Value
import Idealize.ShloMosaic.Lib.Tactic

noncomputable section

namespace Cert.GraphConv.Cases

open Cert.KernelIdeal Cert.KernelIdeal.Gen Idealize.ShloMosaic Idealize.ShloMosaic.TcCoe Idealize.SL.Sem Idealize.ShloMosaic.Tactic

variable {F : FTy → Type} [FloatOps F]

theorem origin : (![0, 0] : Fin 2 → Nat) = fun _ => 0 := funext fun a => by fin_cases a <;> rfl

/-- First step of a row tile: the accumulator ends at the update of the zero block. -/
theorem acc_first (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1024x64 .f32) (harg5 : arg5.IsWhole) (arg6 : Memref sig .tc .vmem S1024x64 .f32) (harg6 : arg6.IsWhole) (hc0 : cond0_0 i) (hc1 : ¬cond0_1 i) (x0 : Vec F S1024x2048 .f32) (x1 : Vec F S2048x64 .f32) (x2 : Vec F S64x64 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x64) origin, View.readCov_unit_zero (S := S1024x64) _ origin]
  simp only [View.readAt_eq_ld, harg2.read_unread, harg3.read_unread, View.ld_unit_zero (S := S1024x2048) origin,
    View.ld_unit_zero (S := S2048x64) origin]

/-- A middle step: the accumulator ends at the update of what the step before left (`prev`). -/
theorem acc_middle (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : ¬cond0_1 i) (x0 : Vec F S1024x2048 .f32) (x1 : Vec F S2048x64 .f32) (x2 : Vec F S64x64 .f32) (prev : Vec F S1024x64 .f32) :
    sout0_B_0 c i arg2 harg2 arg3 harg3 arg4 harg4 arg5 harg5 arg6 harg6 hc0 hc1 x0 x1 x2 prev = k0_pay2 x0 x1 prev := by
  unfold sout0_B_0
  rw [View.read_writes_eq_canon _ _ _ (scover0_B_0 c i arg2 harg2 arg3 harg3 arg4 harg4 arg5 harg5 arg6 harg6 hc0 hc1 x0 x1 x2 prev)]
  unfold kernelRun0_B
  dsimp only
  sl_unfold_words
  rw [View.canon_unit_zero origin]
  simp only [View.readAt_eq_ld, harg2.read_unread, harg3.read_unread, harg6.read_unread,
    View.ld_unit_zero (S := S1024x2048) origin, View.ld_unit_zero (S := S2048x64) origin,
    View.ld_unit_zero (S := S1024x64) origin]

/-- The last step: the accumulator likewise, -/
theorem acc_last (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i) (x0 : Vec F S1024x2048 .f32) (x1 : Vec F S2048x64 .f32) (x2 : Vec F S64x64 .f32) (prev : Vec F S1024x64 .f32) :
    sout0_C_0 c i arg2 harg2 arg3 harg3 arg4 harg4 arg5 harg5 arg6 harg6 hc0 hc1 x0 x1 x2 prev = k0_pay2 x0 x1 prev := by
  unfold sout0_C_0
  rw [View.read_writes_eq_canon _ _ _ (scover0_C_0 c i arg2 harg2 arg3 harg3 arg4 harg4 arg5 harg5 arg6 harg6 hc0 hc1 x0 x1 x2 prev)]
  unfold kernelRun0_C
  dsimp only
  sl_unfold_words
  rw [View.canon_unit_zero origin]
  simp only [View.readAt_eq_ld, harg2.read_unread, harg3.read_unread, harg6.read_unread,
    View.ld_unit_zero (S := S1024x2048) origin, View.ld_unit_zero (S := S2048x64) origin,
    View.ld_unit_zero (S := S1024x64) origin]

/-- and the output block: the finished accumulator times W. -/
theorem out_last (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i) (x0 : Vec F S1024x2048 .f32) (x1 : Vec F S2048x64 .f32) (x2 : Vec F S64x64 .f32) (prev : Vec F S1024x64 .f32) :
    out0_C_3 c i arg2 harg2 arg3 harg3 arg4 harg4 arg5 harg5 arg6 harg6 hc0 hc1 x0 x1 x2 prev = k0_pay3 (k0_pay2 x0 x1 prev) x2 := by
  unfold out0_C_3
  rw [View.read_writes_eq_canon _ _ _ (cover0_C_3 c i arg2 harg2 arg3 harg3 arg4 harg4 arg5 harg5 arg6 harg6 hc0 hc1 x0 x1 x2 prev)]
  unfold kernelRun0_C
  dsimp only
  sl_unfold_words
  rw [View.canon_unit_zero origin]
  simp only [View.readAt_eq_ld, harg2.read_unread, harg3.read_unread, harg4.read_unread, harg6.read_unread,
    View.ld_unit_zero (S := S1024x2048) origin, View.ld_unit_zero (S := S2048x64) origin,
    View.ld_unit_zero (S := S1024x64) origin, View.ld_unit_zero (S := S64x64) origin,
    View.readCov_unit_zero (S := S1024x64) _ origin]

end Cert.GraphConv.Cases

end
-- ==== Proof.BlockRead.lean ====
/-
  Which entries of the argument arrays a grid point's blocks are. The grid is 16 row tiles by 8 column steps, the
  column step the fast axis: point t is row tile t / 8 at step t % 8. There the block of A is rows
  1024 · (t / 8) + p and columns 2048 · (t % 8) + k of A; the block of X is rows 2048 · (t % 8) + k of X, all 64
  channels; the block of W is W; and the output block is rows 1024 · (t / 8) + p of the result.
-/
import proofs.«114459_j30081950941518_1_alg».proof.Proof.Gen.KernelIdeal.Frame
import Idealize.ShloMosaic.Lib.Pipeline.Value
import Idealize.ShloMosaic.Lib.ValueIdx

noncomputable section

namespace Cert.GraphConv.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The block indices at a point, decided once over the 128 points -/

theorem index_adj : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

theorem index_x : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

theorem index_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index_out : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-! ## The input blocks, by their literal types -/

/-- The block of A at point t. -/
abbrev adjBlk (c : Dev nD) (t : Fin cfg0.N) : Vec F S1024x2048 .f32 := iblk m c 0 t
/-- The block of X at point t. -/
abbrev xBlk (c : Dev nD) (t : Fin cfg0.N) : Vec F S2048x64 .f32 := iblk m c 1 t
/-- The block of W at point t (all of W). -/
abbrev wBlk (c : Dev nD) (t : Fin cfg0.N) : Vec F S64x64 .f32 := iblk m c 2 t

/-- Entry (p, k) of A's block at t is A at row 1024 · (t / 8) + p, column 2048 · (t % 8) + k. -/
theorem adjBlk_apply (c : Dev nD) (t : Fin cfg0.N) (p : Fin 1024) (k : Fin 2048) (r n : Fin 16384)
    (hr : r.val = 1024 * (t.val / 8) + p.val) (hn : n.val = 2048 * (t.val % 8) + k.val) :
    adjBlk m c t (ix2 p k) = m ((c : Thread nD τ).loc main_arg1) (ix2 r n) := by
  unfold adjBlk iblk
  rw [View.read_apply]
  show V m c main_arg1 _ = m ((c : Thread nD τ).loc main_arg1) _
  unfold V
  congr 1
  funext a
  apply Fin.ext
  match a with
  | ⟨0, _⟩ => show win0_0.index t (0 : Fin 2) * 1024 + 1 * p.val = r.val; rw [(index_adj t).1]; omega
  | ⟨1, _⟩ => show win0_0.index t (1 : Fin 2) * 2048 + 1 * k.val = n.val; rw [(index_adj t).2]; omega

/-- Entry (k, q) of X's block at t is X at row 2048 · (t % 8) + k, channel q. -/
theorem xBlk_apply (c : Dev nD) (t : Fin cfg0.N) (k : Fin 2048) (q : Fin 64) (n : Fin 16384)
    (hn : n.val = 2048 * (t.val % 8) + k.val) :
    xBlk m c t (ix2 k q) = m ((c : Thread nD τ).loc main_arg0) (ix2 n q) := by
  unfold xBlk iblk
  rw [View.read_apply]
  show V m c main_arg0 _ = m ((c : Thread nD τ).loc main_arg0) _
  unfold V
  congr 1
  funext a
  apply Fin.ext
  match a with
  | ⟨0, _⟩ => show win0_1.index t (0 : Fin 2) * 2048 + 1 * k.val = n.val; rw [(index_x t).1]; omega
  | ⟨1, _⟩ => show win0_1.index t (1 : Fin 2) * 64 + 1 * q.val = q.val; rw [(index_x t).2]; omega

/-- W's block is W. -/
theorem wBlk_apply (c : Dev nD) (t : Fin cfg0.N) (a b : Fin 64) :
    wBlk m c t (ix2 a b) = m ((c : Thread nD τ).loc main_arg2) (ix2 a b) := by
  unfold wBlk iblk
  rw [View.read_apply]
  show V m c main_arg2 _ = m ((c : Thread nD τ).loc main_arg2) _
  unfold V
  congr 1
  funext d
  apply Fin.ext
  match d with
  | ⟨0, _⟩ => show win0_2.index t (0 : Fin 2) * 64 + 1 * a.val = a.val; rw [(index_w t).1]; omega
  | ⟨1, _⟩ => show win0_2.index t (1 : Fin 2) * 64 + 1 * b.val = b.val; rw [(index_w t).2]; omega

end Cert.GraphConv.Blocks

end
-- ==== Proof.Accumulation.lean ====
/-
  The accumulator along a row tile. After the step k of row tile i (grid point 8 · i + k) the accumulator holds, at
  (p, q), the inner sum of (A · X)(1024 · i + p, q) cut after the first 2048 · (k + 1) columns of A: the first step
  starts from zero, each step adds its block's 2048 products, and consecutive blocks are consecutive columns. After the
  last step (k = 7) that is the whole entry of A · X, and the output block stored there, the accumulator times W, is the
  convolution's rows 1024 · i + p.
-/
import proofs.«114459_j30081950941518_1_alg».proof.Proof.ConvSpec
import proofs.«114459_j30081950941518_1_alg».proof.Proof.PayloadAt
import proofs.«114459_j30081950941518_1_alg».proof.Proof.CaseValues
import proofs.«114459_j30081950941518_1_alg».proof.Proof.BlockRead

noncomputable section

namespace Cert.GraphConv.Accum

open Cert.KernelIdeal Cert.KernelIdeal.Gen Idealize.ShloMosaic Idealize.ShloMosaic.TcCoe Idealize.SL.Sem
open Idealize.ShloMosaic.ValueIdx Cert.GraphConv Cert.GraphConv.Blocks

variable (m : (ℓ : Loc nD τ sig) → Buf (Elt Ideal) ℓ)

/-- The three argument arrays as launched, as functions into the extended reals. -/
abbrev xArr (c : Dev nD) : SX.Idx → EReal := m ((c : Thread nD τ).loc main_arg0)
abbrev adjArr (c : Dev nD) : SA.Idx → EReal := m ((c : Thread nD τ).loc main_arg1)
abbrev wArr (c : Dev nD) : SW.Idx → EReal := m ((c : Thread nD τ).loc main_arg2)

/-- One update at point t, over an accumulator that holds the inner sum's first 2048 · (t % 8) terms at (p, q), leaves
    its first 2048 · (t % 8) + 2048 terms there. -/
theorem update_extends (c : Dev nD) (t : Fin cfg0.N) (prev : Vec Ideal S1024x64 .f32) (p : Fin 1024) (q : Fin 64)
    (r : Fin 16384) (hr : r.val = 1024 * (t.val / 8) + p.val)
    (hprev : prev (ix2 p q) = aggUpTo (xArr m c) (adjArr m c) r q (2048 * (t.val % 8))) :
    k0_pay2 (F := Ideal) (adjBlk m c t) (xBlk m c t) prev (ix2 p q)
      = aggUpTo (xArr m c) (adjArr m c) r q (2048 * (t.val % 8) + 2048) := by
  rw [Body.accumulate_apply, hprev, aggUpTo_add]
  refine congrArg (_ + ·) (Finset.sum_congr rfl fun k _ => ?_)
  have hk : 2048 * (t.val % 8) + k.val < 16384 := by
    have h1 := k.isLt
    have h2 := Nat.mod_lt t.val (by decide : 0 < 8)
    omega
  rw [term_of_lt _ _ _ _ _ hk, adjBlk_apply m c t p k r ⟨_, hk⟩ hr rfl, xBlk_apply m c t k q ⟨_, hk⟩ rfl]

/-- THE ACCUMULATOR after point n, at (p, q): the inner sum of row 1024 · (n / 8) + p cut after 2048 · (n % 8) + 2048
    columns. By induction on the point: a first step updates zero, a later one what the point before left. -/
theorem acc_after (c : Dev nD) : ∀ (n : ℕ) (h : n < cfg0.N) (p : Fin 1024) (q : Fin 64) (r : Fin 16384),
    r.val = 1024 * (n / 8) + p.val →
    (outsAt0 m c n h).2 (ix2 p q) = aggUpTo (xArr m c) (adjArr m c) r q (2048 * (n % 8) + 2048) := by
  intro n
  induction n using Nat.strong_induction_on with
  | _ n ih =>
    intro h p q r hr
    by_cases h0 : n % 8 = 0
    · have h1 : ¬n % 8 = 7 := by omega
      rw [outsAt0_A m c ⟨n, h⟩ h0 h1]
      dsimp only
      refine (congrFun (Cases.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (adjBlk m c ⟨n, h⟩) (xBlk m c ⟨n, h⟩) (wBlk m c ⟨n, h⟩)) (ix2 p q)).trans ?_
      refine update_extends m c ⟨n, h⟩ _ p q r hr ?_
      rw [Body.reset_apply]
      show (0 : EReal) = aggUpTo _ _ r q (2048 * (n % 8))
      rw [h0, Nat.mul_zero, aggUpTo_zero]
    · have hlt : n - 1 < n := by omega
      have hprev : ∀ (h' : n - 1 < cfg0.N), (outsAt0 m c (n - 1) h').2 (ix2 p q)
          = aggUpTo (xArr m c) (adjArr m c) r q (2048 * (n % 8)) := fun h' => by
        rw [ih (n - 1) hlt h' p q r (by omega)]
        congr 1
        omega
      by_cases h1 : n % 8 = 7
      · rw [outsAt0_C m c ⟨n, h⟩ h0 h1]
        dsimp only
        refine (congrFun (Cases.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (adjBlk m c ⟨n, h⟩) (xBlk m c ⟨n, h⟩) (wBlk m c ⟨n, h⟩) (outsAt0 m c (n - 1) (Nat.lt_of_le_of_lt (Nat.sub_le _ _) h)).2) (ix2 p q)).trans ?_
        exact update_extends m c ⟨n, h⟩ _ p q r hr (hprev _)
      · rw [outsAt0_B m c ⟨n, h⟩ h0 h1]
        dsimp only
        refine (congrFun (Cases.acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (adjBlk m c ⟨n, h⟩) (xBlk m c ⟨n, h⟩) (wBlk m c ⟨n, h⟩) (outsAt0 m c (n - 1) (Nat.lt_of_le_of_lt (Nat.sub_le _ _) h)).2) (ix2 p q)).trans ?_
        exact update_extends m c ⟨n, h⟩ _ p q r hr (hprev _)

/-- THE OUTPUT BLOCK at a last step (t % 8 = 7), at (p, q): the convolution at row 1024 · (t / 8) + p, channel q. -/
theorem out_at_last (c : Dev nD) (t : Fin cfg0.N) (h7 : t.val % 8 = 7) (p : Fin 1024) (q : Fin 64) (r : Fin 16384)
    (hr : r.val = 1024 * (t.val / 8) + p.val) :
    (outsAt0 m c t.val t.isLt).1 (ix2 p q) = conv (xArr m c) (adjArr m c) (wArr m c) (ix2 r q) := by
  have h0 : ¬t.val % 8 = 0 := by omega
  rw [outsAt0_C m c t h0 h7]
  dsimp only
  refine (congrFun (Cases.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7) (adjBlk m c t) (xBlk m c t) (wBlk m c t) (outsAt0 m c (t.val - 1) (Nat.lt_of_le_of_lt (Nat.sub_le _ _) t.isLt)).2) (ix2 p q)).trans ?_
  rw [Body.project_apply]
  show _ = ∑ cc : Fin 64, agg (xArr m c) (adjArr m c) r cc * wArr m c (ix2 cc q)
  refine Finset.sum_congr rfl fun cc _ => ?_
  have hprev : (outsAt0 m c (t.val - 1) (Nat.lt_of_le_of_lt (Nat.sub_le _ _) t.isLt)).2 (ix2 p cc)
      = aggUpTo (xArr m c) (adjArr m c) r cc (2048 * (t.val % 8)) := by
    rw [acc_after m c (t.val - 1) _ p cc r (by omega)]
    congr 1
    omega
  rw [update_extends m c t _ p cc r hr hprev, wBlk_apply, h7, aggUpTo_full]

end Cert.GraphConv.Accum

end
-- ==== Proof.ResultArray.lean ====
/-
  The result array after the run. The output window is written back at the last step of each row tile only, and what
  is written back there is the convolution's rows of that tile; the sixteen tiles' blocks tile the 16384 rows, so the
  array ends holding the convolution of the argument arrays, everywhere.
-/
import proofs.«114459_j30081950941518_1_alg».proof.Proof.Accumulation
import proofs.«114459_j30081950941518_1_alg».proof.Proof.Gen.KernelIdeal.Value

noncomputable section

namespace Cert.GraphConv.Result

open Cert.KernelIdeal Cert.KernelIdeal.Gen Idealize.ShloMosaic Idealize.ShloMosaic.TcCoe Idealize.SL.Sem
open Idealize.ShloMosaic.Pipeline (Dat)
open Idealize.ShloMosaic.ValueIdx Cert.GraphConv Cert.GraphConv.Blocks Cert.GraphConv.Accum

variable (m : (ℓ : Loc nD τ sig) → Buf (Elt Ideal) ℓ) (ρ : Dev nD → PrngReg)

/-- The convolution of the argument arrays as launched, as contents of the result array. -/
abbrev result (c : Dev nD) : Buf (Elt Ideal) ((c : Thread nD τ).loc main_v0) :=
  conv (xArr m c) (adjArr m c) (wArr m c)

/-- What a writing point t (a last step) writes back is block t of the convolution. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have ht : t.val < 128 := lt_of_lt_of_eq t.isLt (show cfg0.N = 128 from N_0)
  rw [Cert.KernelIdeal.Value.flushed3]
  funext j
  have hp : (j 0).val < 1024 := (j 0).isLt
  have hq : (j 1).val < 64 := (j 1).isLt
  show (outsAt0 m c t.val t.isLt).1 j = conv (xArr m c) (adjArr m c) (wArr m c) (((cfg0.win 3).blk t).view.emb j)
  refine (congrArg (outsAt0 m c t.val t.isLt).1 (eq_ix2 (n0 := 1024) (n1 := 64) j)).trans ?_
  refine (out_at_last m c t h7 (j 0) (j 1) ⟨1024 * (t.val / 8) + (j 0).val, by omega⟩ rfl).trans ?_
  congr 1
  funext a
  apply Fin.ext
  match a with
  | ⟨0, _⟩ => show 1024 * (t.val / 8) + (j 0).val = win0_3.index t (0 : Fin 2) * 1024 + 1 * (j 0).val; rw [(index_out t).1]; omega
  | ⟨1, _⟩ => show (j 1).val = win0_3.index t (1 : Fin 2) * 64 + 1 * (j 1).val; rw [(index_out t).2]; omega

/-- An index of the result array is in point t's block iff each coordinate is in the block's range on its axis. -/
theorem mem_block (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0).slice (win0_3.rect t)).set ↔ _
  rw [View.set_slice_whole, Rect.mem_set_unit]
  exact Iff.rfl

/-- Every row is in the block of its tile's last step: row r in that of point 8 · (r / 1024) + 7. -/
theorem covered (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 128 := N_0
  have hlt : 8 * ((i 0).val / 1024) + 7 < cfg0.N := by omega
  refine ⟨⟨8 * ((i 0).val / 1024) + 7, hlt⟩, ?_, ?_⟩
  · exact (flush0_3 _).mpr (by show (8 * ((i 0).val / 1024) + 7) % 8 = 7; omega)
  · rw [mem_block]
    obtain ⟨e0, e1⟩ := index_out ⟨8 * ((i 0).val / 1024) + 7, hlt⟩
    have e0' : win0_3.index ⟨8 * ((i 0).val / 1024) + 7, hlt⟩ (0 : Fin 2) = (i 0).val / 1024 := by
      rw [e0]; show (8 * ((i 0).val / 1024) + 7) / 8 = _; omega
    intro a
    match a with
    | ⟨0, _⟩ => show win0_3.index _ (0 : Fin 2) * 1024 ≤ (i 0).val ∧ (i 0).val < win0_3.index _ (0 : Fin 2) * 1024 + 1024; rw [e0']; omega
    | ⟨1, _⟩ => show win0_3.index _ (1 : Fin 2) * 64 ≤ (i 1).val ∧ (i 1).val < win0_3.index _ (1 : Fin 2) * 64 + 64; rw [e1]; omega

/-- THE RESULT ARRAY after the run is the convolution of the argument arrays. -/
theorem final (c : Dev nD) : (dats m 0 c).arrAt 3 cfg0.N = result m c :=
  (dats m 0 c).arrAt_eq_of_cover 3 (result m c) (fun t hf => flushed_eq m c t hf) covered

/-- The kernel's run, read: the result array at the convolution, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.GraphConv.Result

end
-- ==== Proof.ReferenceConv.lean ====
/-
  The reference computes the same function: its two matrix products on the host, read at an index, are the sum over
  the channels c of (the sum over k of A(r, k) · X(k, c)) times W(c, j), which is the convolution as specified.
-/
import proofs.«114459_j30081950941518_1_alg».proof.Proof.ConvSpec
import proofs.«114459_j30081950941518_1_alg».proof.Proof.Gen.ReferenceIdeal.Read

noncomputable section

namespace Cert.GraphConv.Reference

open Cert.ReferenceIdeal Cert.ReferenceIdeal.Read Idealize.ShloMosaic Idealize.ShloMosaic.ValueIdx Cert.GraphConv

/-- The reference's result, its second product over its first, is the convolution of its arguments. -/
theorem result_eq (x : (⟨S16384x64, .f32⟩ : BufTy).Contents (Elt Ideal)) (adj : (⟨S16384x16384, .f32⟩ : BufTy).Contents (Elt Ideal))
    (w : (⟨S64x64, .f32⟩ : BufTy).Contents (Elt Ideal)) :
    val_main_v1 (F := Ideal) x adj w = conv x adj w := by
  funext i
  rw [val_main_v1_apply]
  unfold conv
  refine Finset.sum_congr rfl fun cc _ => ?_
  rw [val_main_v0_apply]
  unfold agg
  have e1 : ∀ k : Fin 16384, lidx_main_v0 (lidx_main_v1 i cc) k = ix2 (i 0) k := fun k =>
    funext fun a => Fin.ext (by match a with | ⟨0, _⟩ => rfl | ⟨1, _⟩ => rfl)
  have e2 : ∀ k : Fin 16384, ridx_main_v0 (lidx_main_v1 i cc) k = ix2 k cc := fun k =>
    funext fun a => Fin.ext (by match a with | ⟨0, _⟩ => rfl | ⟨1, _⟩ => rfl)
  have e3 : ridx_main_v1 i cc = ix2 cc (i 1) :=
    funext fun a => Fin.ext (by match a with | ⟨0, _⟩ => rfl | ⟨1, _⟩ => rfl)
  simp only [e1, e2, e3]
  rfl

end Cert.GraphConv.Reference

end
-- ==== Proof.lean ====
/- The graph convolution out = (A · X) · W, A a dense 16384 × 16384 adjacency, X the 16384 × 64 node features, W a 64 × 64
   projection. The kernel walks a grid of 16 row tiles by 8 column steps: for each tile of 1024 rows it accumulates
   A-block · X-block over the 8 blocks of 2048 columns of A, starting from zero, and at the last step multiplies the
   finished 1024 × 64 aggregate by W and writes the output block; its matrix products are fed bf16 operands, a change
   of format that is the identity on extended reals. The reference forms A · X whole and then multiplies by W. Over the
   extended reals the two agree entry by entry: the inner sum over A's 16384 columns is the sum of its 8 consecutive
   runs of 2048 (addition is commutative and associative, and the zero the accumulator starts from is neutral), so no
   finiteness of the inputs is used. The modules, in order: ConvSpec (the function and the cut sums), PayloadAt (the
   body's stored values at an index), CaseValues (what each kind of step leaves), BlockRead (which entries a point's
   blocks are), Accumulation (the accumulator along a row tile), ResultArray (the result array after the run),
   ReferenceConv (the reference is the same function). The idealization rewrote nothing, so that claim is trivial;
   the frames of the two kernel programs are the generated ones, the reference's is its generated run. -/
import proofs.«114459_j30081950941518_1_alg».proof.Defs
import proofs.«114459_j30081950941518_1_alg».proof.Proof.Gen.Kernel
import proofs.«114459_j30081950941518_1_alg».proof.Proof.Gen.Kernel.Skeleton
import proofs.«114459_j30081950941518_1_alg».proof.Proof.Gen.Kernel.Launch
import proofs.«114459_j30081950941518_1_alg».proof.Proof.Gen.Kernel.Points
import proofs.«114459_j30081950941518_1_alg».proof.Proof.Gen.Kernel.Frame
import proofs.«114459_j30081950941518_1_alg».proof.Proof.Gen.KernelIdeal
import proofs.«114459_j30081950941518_1_alg».proof.Proof.Gen.KernelIdeal.Skeleton
import proofs.«114459_j30081950941518_1_alg».proof.Proof.Gen.KernelIdeal.Launch
import proofs.«114459_j30081950941518_1_alg».proof.Proof.Gen.KernelIdeal.Points
import proofs.«114459_j30081950941518_1_alg».proof.Proof.Gen.KernelIdeal.Frame
import proofs.«114459_j30081950941518_1_alg».proof.Proof.Gen.ReferenceIdeal
import proofs.«114459_j30081950941518_1_alg».proof.Proof.Gen.Pre_finite_inputs
import proofs.«114459_j30081950941518_1_alg».proof.Proof.Gen.KernelIdeal.Value
import proofs.«114459_j30081950941518_1_alg».proof.Proof.Gen.ReferenceIdeal.Run
import proofs.«114459_j30081950941518_1_alg».proof.Proof.Gen.ReferenceIdeal.Read
import proofs.«114459_j30081950941518_1_alg».proof.Proof.ResultArray
import proofs.«114459_j30081950941518_1_alg».proof.Proof.ReferenceConv
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the convolution of its arguments, and the reference's
    at the same function of arguments that agree. -/
theorem algebraic : Cert.algebraic_KernelIdeal_ReferenceIdeal := by
  intro m ρ m' ρ' _ hagree
  refine ⟨fun c => Cert.GraphConv.Result.result m c, Cert.GraphConv.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.GraphConv.Reference.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
